-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2000x16 : Shape := ⟨4, ![8, 256, 2000, 16]⟩
abbrev S_ : Shape := ⟨0, ![]⟩

class Facts : Prop where
  bcast_S_S8x256x2000x16 : S_.BroadcastsInDim S8x256x2000x16 (![] : Fin 0 → Fin S8x256x2000x16.rank)
  reducesTo_S8x256x2000x16_S_d0_1_2_3 : S8x256x2000x16.ReducesTo [0, 1, 2, 3] S_
  h_S_ : 0 < S_.numel

variable [Facts]

def fn {F : FTy → Type} [FloatOps F] (main_arg0 : FVec F S8x256x2000x16 .f32) : IVec S_ 1 :=
  let main_v0 : FVec F S8x256x2000x16 .f32 := Host.absf main_arg0
  let main_cst : FVec F S_ .f32 := constant S_ .f32 0x7F800000#32
  let main_v1 : FVec F S8x256x2000x16 .f32 := broadcastInDim S8x256x2000x16 ![] bcast_S_S8x256x2000x16 main_cst
  let main_v2 : IVec S8x256x2000x16 1 := cmpf .olt main_v0 main_v1
  let main_c : IVec S_ 1 := constantI S_ 1 1#1
  let main_v3 : IVec S_ 1 := (fun x v => Host.reduce IntOp.andi x v reducesTo_S8x256x2000x16_S_d0_1_2_3 h_S_) main_v2 main_c
  main_v3
-- ==== Kernel.lean ====
abbrev S8x256x2000x16 : Shape := ⟨4, ![8, 256, 2000, 16]⟩
abbrev S2048x2000x16 : Shape := ⟨3, ![2048, 2000, 16]⟩
abbrev S2048x2001x8 : Shape := ⟨3, ![2048, 2001, 8]⟩
abbrev S8x2000x16 : Shape := ⟨3, ![8, 2000, 16]⟩
abbrev S8x2001x8 : Shape := ⟨3, ![8, 2001, 8]⟩
abbrev S8x2000x8 : Shape := ⟨3, ![8, 2000, 8]⟩
abbrev S2048x16008 : Shape := ⟨2, ![2048, 16008]⟩
abbrev S8x256x16008 : Shape := ⟨3, ![8, 256, 16008]⟩

abbrev nBuf : Space → Nat
  | .hbm => 5
  | .vmem => 5
  | .smem => 0
  | _ => 0

abbrev bufTy : (tb : Table) → Fin (tcTables nBuf tb) → BufTy
  | .hbm, ⟨0, _⟩ => ⟨S8x256x2000x16, .f32⟩
  | .hbm, ⟨1, _⟩ => ⟨S2048x2000x16, .f32⟩
  | .hbm, ⟨2, _⟩ => ⟨S2048x2001x8, .f32⟩
  | .hbm, ⟨3, _⟩ => ⟨S2048x16008, .f32⟩
  | .hbm, ⟨4, _⟩ => ⟨S8x256x16008, .f32⟩
  | .local _ .vmem, ⟨0, _⟩ => ⟨S8x2000x16, .f32⟩
  | .local _ .vmem, ⟨1, _⟩ => ⟨S8x2000x16, .f32⟩
  | .local _ .vmem, ⟨2, _⟩ => ⟨S8x2001x8, .f32⟩
  | .local _ .vmem, ⟨3, _⟩ => ⟨S8x2001x8, .f32⟩
  | .local _ .vmem, ⟨4, _⟩ => ⟨S8x2001x8, .f32⟩
  | _, _ => ⟨S8x256x2000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2001x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x256x2000x16_S2048x2000x16 : S8x256x2000x16.ShapeCasts S2048x2000x16
  inb_S8x2001x8_S8x2001x8_0_0_0 : ∀ a, (![0, 0, 0] : Fin 3 → Nat) a + S8x2001x8.size a ≤ S8x2001x8.size a
  h_S8x2001x8 : 0 < S8x2001x8.numel
  shapeCasts_S8x2001x8_S8x2001x8 : S8x2001x8.ShapeCasts S8x2001x8
  inb_S8x2001x8_S8x2000x8_0_0_0 : ∀ a, (![0, 0, 0] : Fin 3 → Nat) a + S8x2000x8.size a ≤ S8x2001x8.size a
  h_S8x2000x8 : 0 < S8x2000x8.numel
  inb_S8x2000x16_S8x2000x8_0_0_0 : ∀ a, (![0, 0, 0] : Fin 3 → Nat) a + S8x2000x8.size a ≤ S8x2000x16.size a
  shapeCasts_S8x2000x8_S8x2000x8 : S8x2000x8.ShapeCasts S8x2000x8
  inb_S8x2001x8_S8x2000x8_0_1_0 : ∀ a, (![0, 1, 0] : Fin 3 → Nat) a + S8x2000x8.size a ≤ S8x2001x8.size a
  inb_S8x2000x16_S8x2000x8_0_0_8 : ∀ a, (![0, 0, 8] : Fin 3 → Nat) a + S8x2000x8.size a ≤ S8x2000x16.size a
  shapeCasts_S2048x2001x8_S2048x16008 : S2048x2001x8.ShapeCasts S2048x16008
  shapeCasts_S2048x16008_S8x256x16008 : S2048x16008.ShapeCasts S8x256x16008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2000x16.size a ≤ S2048x2000x16.size a
  hwx0_0 : ∀ i : grid0.Coords, EltTy.bits .f32 = 32 ∨ (Rect.block (s := S2048x2000x16) S8x2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2001x8.size a ≤ S2048x2001x8.size a
  hwx0_1 : ∀ i : grid0.Coords, EltTy.bits .f32 = 32 ∨ (Rect.block (s := S2048x2001x8) S8x2001x8.size (cc0_transform_1 i) (hinb0_1 i)).WholeWords (EltTy.packing .f32)

variable [Facts₀]

abbrev win0_0 : Pipeline.Window sig grid0 :=
  Pipeline.Window.ofSpec (Memref.whole main_v0) S8x2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2001x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x2000x16 : Shape := ⟨4, ![8, 256, 2000, 16]⟩
abbrev S4000 : Shape := ⟨1, ![4000]⟩
abbrev S8x256x4000x8 : Shape := ⟨4, ![8, 256, 4000, 8]⟩
abbrev S4000x8x256x8 : Shape := ⟨4, ![4000, 8, 256, 8]⟩
abbrev S_ : Shape := ⟨0, ![]⟩
abbrev S2001x8x256x8 : Shape := ⟨4, ![2001, 8, 256, 8]⟩
abbrev S4000x1 : Shape := ⟨2, ![4000, 1]⟩
abbrev S8x256x2001x8 : Shape := ⟨4, ![8, 256, 2001, 8]⟩
abbrev S8x256x16008 : Shape := ⟨3, ![8, 256, 16008]⟩

abbrev nBuf : Space → Nat
  | .hbm => 10
  | .vmem => 0
  | .smem => 0
  | _ => 0

abbrev bufTy : (tb : Table) → Fin (tcTables nBuf tb) → BufTy
  | .hbm, ⟨0, _⟩ => ⟨S8x256x2000x16, .f32⟩
  | .hbm, ⟨1, _⟩ => ⟨S4000, .i32⟩
  | .hbm, ⟨2, _⟩ => ⟨S8x256x4000x8, .f32⟩
  | .hbm, ⟨3, _⟩ => ⟨S4000x8x256x8, .f32⟩
  | .hbm, ⟨4, _⟩ => ⟨S_, .f32⟩
  | .hbm, ⟨5, _⟩ => ⟨S2001x8x256x8, .f32⟩
  | .hbm, ⟨6, _⟩ => ⟨S4000x1, .i32⟩
  | .hbm, ⟨7, _⟩ => ⟨S2001x8x256x8, .f32⟩
  | .hbm, ⟨8, _⟩ => ⟨S8x256x2001x8, .f32⟩
  | .hbm, ⟨9, _⟩ => ⟨S8x256x16008, .f32⟩
  | _, _ => ⟨S8x256x2000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S8x256x2000x16_S8x256x4000x8 : S8x256x2000x16.ShapeCasts S8x256x4000x8
  transposes_S8x256x4000x8_S4000x8x256x8_2_0_1_3 : S8x256x4000x8.Transposes [2, 0, 1, 3] S4000x8x256x8
  bcast_S_S2001x8x256x8 : S_.BroadcastsInDim S2001x8x256x8 (![] : Fin 0 → Fin S2001x8x256x8.rank)
  bcast_S4000_S4000x1_0 : S4000.BroadcastsInDim S4000x1 (![0] : Fin 1 → Fin S4000x1.rank)
  transposes_S2001x8x256x8_S8x256x2001x8_1_2_0_3 : S2001x8x256x8.Transposes [1, 2, 0, 3] S8x256x2001x8
  shapeCasts_S8x256x2001x8_S8x256x16008 : S8x256x2001x8.ShapeCasts S8x256x16008
  scatter_S2001x8x256x8_S4000x1_S4000x8x256x8_123_0_0_1_wf : ScatterDims.WF S2001x8x256x8 S4000x1 S4000x8x256x8 [1, 2, 3] [0] [0] 1

variable [Facts₀]

def scatter_S2001x8x256x8_S4000x1_S4000x8x256x8_123_0_0_1 : ScatterDims S2001x8x256x8 S4000x1 S4000x8x256x8 where
  updateWindowDims := [1, 2, 3]
  insertedWindowDims := [0]
  scatterDimsToOperandDims := [0]
  indexVectorDim := 1
  wf := scatter_S2001x8x256x8_S4000x1_S4000x8x256x8_123_0_0_1_wf

class Facts : Prop extends Facts₀ where

variable [Facts]
-- ==== Proof.Spec.lean ====
/-
  The overlap-add ("fold") of 2000 frames of 16 samples at hop 8, as a function of arrays read index by index.
  Frame `f` of a row contributes its first eight samples to output frame `f` and its last eight to output frame
  `f + 1`; so output frame `f` (of 2001, eight samples each) is the first half of input frame `f` (when `f < 2000`)
  plus the second half of input frame `f - 1` (when `1 ≤ f`).
-/
import Idealize.ShloMosaic.PureOps.Ideal
import Idealize.ShloMosaic.Lib.ValueIdx

noncomputable section

namespace Cert.Fold

open Idealize.ShloMosaic Idealize.ShloMosaic.ValueIdx

/-- Output sample `(r, f, s)` of the fold of the `R` rows `x`: the first half of frame `f` plus the second half of
    frame `f - 1`, each where the frame exists. -/
def foldAt {R : ℕ} (x : (⟨3, ![R, 2000, 16]⟩ : Shape).Idx → EReal) (r : Fin R) (f : Fin 2001) (s : Fin 8) : EReal :=
  (if h : f.val < 2000 then x (ix3 r ⟨f.val, h⟩ ⟨s.val, by omega⟩) else 0)
  + (if h : 1 ≤ f.val then x (ix3 r ⟨f.val - 1, by omega⟩ ⟨8 + s.val, by omega⟩) else 0)

/-- The same over the signal with its batch and channel axes apart: output sample `(b, c, f, s)`. -/
def foldAt4 (x : (⟨4, ![8, 256, 2000, 16]⟩ : Shape).Idx → EReal) (b : Fin 8) (c : Fin 256) (f : Fin 2001) (s : Fin 8) : EReal :=
  (if h : f.val < 2000 then x (ix4 b c ⟨f.val, h⟩ ⟨s.val, by omega⟩) else 0)
  + (if h : 1 ≤ f.val then x (ix4 b c ⟨f.val - 1, by omega⟩ ⟨8 + s.val, by omega⟩) else 0)

/-- The result of both programs: entry `(b, c, k)` of the folded signal, `k = 8 f + s` the position in the row of
    16008 output samples. -/
def G (x : (⟨4, ![8, 256, 2000, 16]⟩ : Shape).Idx → EReal) : (⟨3, ![8, 256, 16008]⟩ : Shape).Idx → EReal := fun i =>
  foldAt4 x ⟨(i 0).val, (i 0).isLt⟩ ⟨(i 1).val, (i 1).isLt⟩ ⟨(i 2).val / 8, by have := (i 2).isLt; change (i 2).val < 16008 at this; omega⟩
    ⟨(i 2).val % 8, Nat.mod_lt _ (by decide)⟩

theorem G_apply (x : (⟨4, ![8, 256, 2000, 16]⟩ : Shape).Idx → EReal) (b : Fin 8) (c : Fin 256) (k : Fin 16008) :
    G x (ix3 b c k) = foldAt4 x b c ⟨k.val / 8, by omega⟩ ⟨k.val % 8, Nat.mod_lt _ (by decide)⟩ := rfl

end Cert.Fold

end
-- ==== Proof.Pieces.lean ====
/-
  What a buffer of 8 × 2001 × 8 words reads after a store of 2000 of its 2001 rows (from row 0 or from row 1), stated
  over the list of stores as the index-by-index canonical contents: inside the stored rows the store's payload,
  outside them what the earlier stores left.
-/
import Idealize.ShloMosaic.Lib.Pipeline.Value
import Idealize.ShloMosaic.Lib.ValueIdx

noncomputable section

namespace Cert.Fold

open Idealize.ShloMosaic Idealize.ShloMosaic.ValueIdx

abbrev SBlk : Shape := ⟨3, ![8, 2001, 8]⟩
abbrev SHalf : Shape := ⟨3, ![8, 2000, 8]⟩

variable {Val : EltTy → Type} [∀ e, Nonempty (Val e)] {e : EltTy}

/-- A store of rows `o … o + 1999` (`o ≤ 1`), made last: at `(p, f, s)` its payload at `(p, f - o, s)` when row `f` is
    among them, else the earlier stores' contents. -/
theorem canon_rows (o : ℕ) (ho : o ≤ 1) (inb : ∀ a, (![0, o, 0] : Fin 3 → ℕ) a + SHalf.size a ≤ SBlk.size a)
    (w : (Rect.unit (s := SBlk) ![0, o, 0] SHalf.size inb).shape.Idx → Val e) (L : List (View.Piece Val SBlk e))
    (p : Fin 8) (f : Fin 2001) (s : Fin 8) :
    View.canon ((⟨Rect.unit (s := SBlk) ![0, o, 0] SHalf.size inb, w⟩ : View.Piece Val SBlk e) :: L) (ix3 p f s)
      = if h : o ≤ f.val ∧ f.val < o + 2000 then w (ix3 p ⟨f.val - o, by omega⟩ s) else View.canon L (ix3 p f s) := by
  by_cases h : o ≤ f.val ∧ f.val < o + 2000
  · rw [dif_pos h]
    have e1 : (ix3 p f s : SBlk.Idx) = (Rect.unit (s := SBlk) ![0, o, 0] SHalf.size inb).emb (ix3 p ⟨f.val - o, by omega⟩ s) := by
      funext a; apply Fin.ext
      match a with
      | ⟨0, _⟩ => show p.val = 0 + 1 * p.val; omega
      | ⟨1, _⟩ => show f.val = o + 1 * (f.val - o); omega
      | ⟨2, _⟩ => show s.val = 0 + 1 * s.val; omega
    rw [e1, View.canon_cons_emb]
  · rw [dif_neg h]
    refine View.canon_cons_of_not_mem _ L ?_
    intro hm
    rw [Rect.mem_set_unit] at hm
    have h1 := hm 1
    have h2 : o ≤ f.val ∧ f.val < o + 2000 := h1
    exact h h2

end Cert.Fold

end
-- ==== Proof.KBody.lean ====
/-
  What one run of the kernel body leaves in the output block, index by index: the scratch accumulator is zeroed, the
  first halves of the 2000 frames are added onto its rows 0 … 1999, the second halves onto its rows 1 … 2000, and the
  accumulator is copied out; so entry `(p, f, s)` of the block is the fold of the input block's row `p` at `(f, s)`
  (`0 + a = a` on the extended reals).
-/
import proofs.«103044_j61933428415564_1_alg».proof.Proof.Gen.KernelIdeal.Frame
import proofs.«103044_j61933428415564_1_alg».proof.Proof.Spec
import proofs.«103044_j61933428415564_1_alg».proof.Proof.Pieces
import Idealize.ShloMosaic.Lib.Pipeline.Value
import Idealize.ShloMosaic.Lib.ValueIdx
import Idealize.ShloMosaic.Lib.WholeRead
import Idealize.ShloMosaic.PureOps.Ideal.Laws

set_option maxRecDepth 16384

noncomputable section
namespace Cert.KernelIdeal.KBody
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- Offsets all zero, however spelt. -/
theorem hz3 : (![0, 0, 0] : Fin 3 → Nat) = fun _ => 0 := funext fun a => by fin_cases a <;> rfl

section Payloads

/-- The zero fill, read at an index. -/
theorem pay1_apply (j : S8x2001x8.Idx) : k0_pay1 (F := Ideal) j = 0 := by
  unfold k0_pay1
  simp only [shapeCast_self]
  show Ideal.ofBits .f32 0x00000000#32 = 0
  exact Ideal.ofBits_zero_f32

/-- The first update's payload is the sum of what it read of the accumulator and of the input. -/
theorem pay2_apply (u v : Vec Ideal S8x2000x8 .f32) (j : S8x2000x8.Idx) : k0_pay2 u v j = u j + v j := by
  unfold k0_pay2
  simp only [shapeCast_self]
  rfl

/-- So is the second's. -/
theorem pay3_apply (u v : Vec Ideal S8x2000x8 .f32) (j : S8x2000x8.Idx) : k0_pay3 u v j = u j + v j := by
  unfold k0_pay3
  simp only [shapeCast_self]
  rfl

end Payloads

section Indices

/-- Local index `(p, g, s)` of a 2000-row slab of the accumulator starting at row `o` is `(p, g + o, s)`. -/
theorem idx_rows (o : ℕ) (ho : o ≤ 1) (inb : ∀ a, (![0, o, 0] : Fin 3 → ℕ) a + S8x2000x8.size a ≤ S8x2001x8.size a)
    (p : Fin 8) (g : Fin 2000) (s : Fin 8) :
    (Rect.unit (s := S8x2001x8) ![0, o, 0] S8x2000x8.size inb).toLoadRect.idx (ix3 p g s) = (ix3 p ⟨g.val + o, by omega⟩ s : S8x2001x8.Idx) := by
  funext a; apply Fin.ext
  match a with
  | ⟨0, _⟩ => show 0 + 1 * p.val = p.val; omega
  | ⟨1, _⟩ => show o + 1 * g.val = g.val + o; omega
  | ⟨2, _⟩ => show 0 + 1 * s.val = s.val; omega

/-- Local index `(p, g, s)` of a half of the input block (samples from `o`, `o = 0` or `8`) is `(p, g, o + s)`. -/
theorem idx_half (o : ℕ) (ho : o ≤ 8) (inb : ∀ a, (![0, 0, o] : Fin 3 → ℕ) a + S8x2000x8.size a ≤ S8x2000x16.size a)
    (p : Fin 8) (g : Fin 2000) (s : Fin 8) :
    (Rect.unit (s := S8x2000x16) ![0, 0, o] S8x2000x8.size inb).toLoadRect.idx (ix3 p g s) = (ix3 p g ⟨o + s.val, by omega⟩ : S8x2000x16.Idx) := by
  funext a; apply Fin.ext
  match a with
  | ⟨0, _⟩ => show 0 + 1 * p.val = p.val; omega
  | ⟨1, _⟩ => show 0 + 1 * g.val = g.val; omega
  | ⟨2, _⟩ => show o + 1 * s.val = o + s.val; omega

end Indices

section Run

variable (arg1 : Memref sig .tc .vmem S8x2000x16 .f32) (harg1 : arg1.IsWhole) (arg3 : Memref sig .tc .vmem S8x2001x8 .f32)
  (x0 : Vec Ideal S8x2000x16 .f32)

/-- The accumulator after the zero fill and the first update: rows 0 … 1999 hold `0 +` the frames' first halves,
    row 2000 zero. -/
theorem acc1_apply (p : Fin 8) (f : Fin 2001) (s : Fin 8) :
    View.canon
        [(⟨Rect.unit (s := S8x2001x8) ![0, 0, 0] S8x2000x8.size inb_S8x2001x8_S8x2000x8_0_0_0,
            k0_pay2 (F := Ideal)
              (arg3.view.readCov [(⟨Rect.unit (s := S8x2001x8) ![0, 0, 0] S8x2001x8.size inb_S8x2001x8_S8x2001x8_0_0_0, k0_pay1 (F := Ideal)⟩ : View.Piece (Elt Ideal) S8x2001x8 .f32)]
                (Rect.unit (s := S8x2001x8) ![0, 0, 0] S8x2000x8.size inb_S8x2001x8_S8x2000x8_0_0_0).toLoadRect)
              (View.readAt (Elt Ideal) arg1.view
                (Rect.unit (s := S8x2000x16) ![0, 0, 0] S8x2000x8.size inb_S8x2000x16_S8x2000x8_0_0_0).toLoadRect (harg1.unread x0))⟩ : View.Piece (Elt Ideal) S8x2001x8 .f32),
          (⟨Rect.unit (s := S8x2001x8) ![0, 0, 0] S8x2001x8.size inb_S8x2001x8_S8x2001x8_0_0_0, k0_pay1 (F := Ideal)⟩ : View.Piece (Elt Ideal) S8x2001x8 .f32)]
        (ix3 p f s : S8x2001x8.Idx)
      = if h : f.val < 2000 then (0 : EReal) + x0 (ix3 p ⟨f.val, h⟩ ⟨s.val, by omega⟩) else 0 := by
  rw [Cert.Fold.canon_rows 0 (by omega)]
  by_cases h : f.val < 2000
  · rw [dif_pos (⟨Nat.zero_le _, by omega⟩ : 0 ≤ f.val ∧ f.val < 0 + 2000), dif_pos h]
    rw [pay2_apply, harg1.readAt_unread, View.readCov_eq_canon']
    beta_reduce
    rw [idx_half 0 (by omega), idx_rows 0 (by omega)]
    rw [View.canon_unit_zero hz3, pay1_apply]
    refine congrArg (fun z => (0 : EReal) + x0 z) (funext fun a => Fin.ext ?_)
    match a with
    | ⟨0, _⟩ => rfl
    | ⟨1, _⟩ => show f.val - 0 = f.val; omega
    | ⟨2, _⟩ => show 0 + s.val = s.val; omega
  · rw [dif_neg (by omega : ¬ (0 ≤ f.val ∧ f.val < 0 + 2000)), dif_neg h]
    rw [View.canon_unit_zero hz3, pay1_apply]

/-- THE BLOCK after the body: the fold of the input block, index by index. -/
theorem out_apply (c : Dev nD) (i : grid0.Coords) (arg2 : Memref sig .tc .vmem S8x2001x8 .f32) (harg2 : arg2.IsWhole) (harg3 : arg3.IsWhole)
    (p : Fin 8) (f : Fin 2001) (s : Fin 8) :
    out0_A_1 (F := Ideal) c i arg1 harg1 arg2 harg2 arg3 harg3 x0 (ix3 p f s) = Cert.Fold.foldAt x0 p f s := by
  unfold out0_A_1
  rw [View.read_writes_eq_canon _ _ _ (cover0_A_1 c i arg1 harg1 arg2 harg2 arg3 harg3 x0)]
  unfold kernelRun0_A
  dsimp only
  sl_unfold_words
  rw [View.canon_unit_zero hz3]
  rw [View.readCov_eq_canon']
  have ew : (Rect.unit (s := S8x2001x8) ![0, 0, 0] S8x2001x8.size inb_S8x2001x8_S8x2001x8_0_0_0).toLoadRect.idx (ix3 p f s) = (ix3 p f s : S8x2001x8.Idx) := by
    funext a; apply Fin.ext
    match a with
    | ⟨0, _⟩ => show 0 + 1 * p.val = p.val; omega
    | ⟨1, _⟩ => show 0 + 1 * f.val = f.val; omega
    | ⟨2, _⟩ => show 0 + 1 * s.val = s.val; omega
  show View.canon _ ((Rect.unit (s := S8x2001x8) ![0, 0, 0] S8x2001x8.size inb_S8x2001x8_S8x2001x8_0_0_0).toLoadRect.idx (ix3 p f s)) = _
  rw [ew]
  rw [Cert.Fold.canon_rows 1 (le_refl 1)]
  unfold Cert.Fold.foldAt
  obtain ⟨fv, hf⟩ := f
  rcases fv with _ | g
  · rw [dif_neg (fun h => absurd h.1 (by decide) : ¬ (1 ≤ (0 : ℕ) ∧ (0 : ℕ) < 1 + 2000)), dif_neg (by decide : ¬ (1 ≤ 0)), add_zero]
    rw [acc1_apply arg1 harg1 arg3 x0, dif_pos (by decide : (0 : ℕ) < 2000), dif_pos (by decide : (0 : ℕ) < 2000), zero_add]
  · rw [dif_pos (⟨by omega, by omega⟩ : 1 ≤ g + 1 ∧ g + 1 < 1 + 2000), dif_pos (by omega : 1 ≤ g + 1)]
    rw [pay3_apply, harg1.readAt_unread, View.readCov_eq_canon']
    beta_reduce
    rw [idx_half 8 (by omega), idx_rows 1 (by omega)]
    rw [acc1_apply arg1 harg1 arg3 x0]
    by_cases h2 : g + 1 < 2000
    · simp only [Nat.add_sub_cancel, h2, ↓reduceDIte, zero_add]
    · simp only [Nat.add_sub_cancel, h2, ↓reduceDIte]

end Run

end Cert.KernelIdeal.KBody
end
-- ==== Proof.KValue.lean ====
/-
  The kernel program's result as a function of its argument. The region's grid point `t` handles rows `8 t … 8 t + 7` of
  the signal reshaped to 2048 rows: it stages that block of the input, runs the body (which leaves the fold of the block
  in the output block), and writes the block back; the 256 blocks tile the 2048 × 2001 × 8 result array, which therefore
  ends holding the fold of every row. The two reshapes after the region lay it out as 8 × 256 rows of 16008 samples.
-/
import proofs.«103044_j61933428415564_1_alg».proof.Proof.KBody
import Idealize.ShloMosaic.Lib.StableHlo.Run

set_option maxRecDepth 16384

noncomputable section
namespace Cert.KernelIdeal.KValue
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The fold of every row of a 2048-row array. -/
def rowsFold (X : S2048x2000x16.Idx → EReal) : S2048x2001x8.Idx → EReal := fun i =>
  Cert.Fold.foldAt X ⟨(i 0).val, (i 0).isLt⟩ ⟨(i 1).val, (i 1).isLt⟩ ⟨(i 2).val, (i 2).isLt⟩

theorem rowsFold_apply (X : S2048x2000x16.Idx → EReal) (r : Fin 2048) (f : Fin 2001) (s : Fin 8) :
    rowsFold X (ix3 r f s) = Cert.Fold.foldAt X r f s := rfl

/-- The input block at point `t` and the input array as the region finds it, at their literal types. -/
abbrev xblk (c : Dev nD) (t : Fin cfg0.N) : Vec Ideal S8x2000x16 .f32 := iblk m c 0 t
abbrev xarr (c : Dev nD) : Vec Ideal S2048x2000x16 .f32 := V m c main_v0

/-- Both windows' block index at point `t` is `(t, 0, 0)`. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem t_lt (t : Fin cfg0.N) : t.val < 256 := Nat.lt_of_lt_of_eq t.isLt N_0

/-- Entry `(p, f, l)` of the input block at point `t` is entry `(8 t + p, f, l)` of the array. -/
theorem xblk_apply (c : Dev nD) (t : Fin cfg0.N) (p : Fin 8) (f : Fin 2000) (l : Fin 16) :
    xblk m c t (ix3 p f l) = xarr m c (ix3 ⟨8 * t.val + p.val, by have := t_lt t; omega⟩ f l) := by
  obtain ⟨e0, e1, e2, -, -, -⟩ := idx_facts t
  show V m c main_v0 (((cfg0.win 0).blk t).view.emb (ix3 p f l)) = V m c main_v0 _
  refine congrArg (V m c main_v0) (funext fun a => Fin.ext ?_)
  match a with
  | ⟨0, _⟩ => show win0_0.index t (0 : Fin 3) * 8 + 1 * p.val = 8 * t.val + p.val; omega
  | ⟨1, _⟩ => show win0_0.index t (1 : Fin 3) * 2000 + 1 * f.val = f.val; omega
  | ⟨2, _⟩ => show win0_0.index t (2 : Fin 3) * 16 + 1 * l.val = l.val; omega

/-- WHAT POINT `t` WRITES BACK is block `t` of the fold of the rows. -/
theorem flushed_eq (c : Dev nD) (t : Fin cfg0.N) :
    (dats m 0 c).flushed 1 t = ((cfg0.win 1).blk t).view.read (Elt Ideal) (rowsFold (xarr m c)) := by
  show (cfg0.win 1).cut (grid0.coords t) ((dats m 0 c).after 1 t) = _
  rw [after0_1]
  unfold outsAt0
  obtain ⟨-, -, -, e3, e4, e5⟩ := idx_facts t
  funext j
  obtain ⟨p, f, s, rfl⟩ : ∃ (p : Fin 8) (f : Fin 2001) (s : Fin 8), j = ix3 p f s := ⟨j 0, j 1, j 2, eq_ix3 j⟩
  show out0_A_1 c (grid0.coords t) (ms0_0 t) (hs0_0 t) (ms0_1 t) (hs0_1 t) scM0_0 (Memref.isWhole_whole _) (xblk m c t) (ix3 p f s)
    = rowsFold (xarr m c) (((cfg0.win 1).blk t).view.emb (ix3 p f s))
  have hemb : ((cfg0.win 1).blk t).view.emb (ix3 p f s) = (ix3 ⟨8 * t.val + p.val, by have := t_lt t; omega⟩ f s : S2048x2001x8.Idx) := by
    funext a; apply Fin.ext
    match a with
    | ⟨0, _⟩ => show win0_1.index t (0 : Fin 3) * 8 + 1 * p.val = 8 * t.val + p.val; omega
    | ⟨1, _⟩ => show win0_1.index t (1 : Fin 3) * 2001 + 1 * f.val = f.val; omega
    | ⟨2, _⟩ => show win0_1.index t (2 : Fin 3) * 8 + 1 * s.val = s.val; omega
  rw [hemb, rowsFold_apply]
  rw [KBody.out_apply (ms0_0 t) (hs0_0 t) scM0_0 (xblk m c t) c (grid0.coords t) (ms0_1 t) (hs0_1 t) (Memref.isWhole_whole _) p f s]
  unfold Cert.Fold.foldAt
  simp only [xblk_apply]

/-- An index of the array is in point `t`'s block iff each coordinate is in the block's range on its axis. -/
theorem mem_blk (t : Fin cfg0.N) (i : S2048x2001x8.Idx) :
    i ∈ ((cfg0.win 1).blk t).view.set ↔ ∀ a : Fin 3, win0_1.index t a * S8x2001x8.size a ≤ (i a).val ∧ (i a).val < win0_1.index t a * S8x2001x8.size a + S8x2001x8.size a := by
  show i ∈ ((View.whole main_v1).slice (win0_1.rect t)).set ↔ _
  rw [View.set_slice_whole, Rect.mem_set_unit]
  exact Iff.rfl

/-- Every index of the result array is in the block of the point that handles its row. -/
theorem cover (i : S2048x2001x8.Idx) : ∃ t : Fin cfg0.N, (cfg0.win 1).flush t = true ∧ i ∈ ((cfg0.win 1).blk t).view.set := by
  have hi0 : (i 0).val < 2048 := (i 0).isLt
  have hi1 : (i 1).val < 2001 := (i 1).isLt
  have hi2 : (i 2).val < 8 := (i 2).isLt
  have ht : (i 0).val / 8 < cfg0.N := by rw [show cfg0.N = 256 from N_0]; omega
  refine ⟨⟨(i 0).val / 8, ht⟩, flush0_1 _, ?_⟩
  rw [mem_blk]
  obtain ⟨-, -, -, e3, e4, e5⟩ := idx_facts ⟨(i 0).val / 8, ht⟩
  have e3' : win0_1.index ⟨(i 0).val / 8, ht⟩ (0 : Fin 3) = (i 0).val / 8 := e3
  intro a
  match a with
  | ⟨0, _⟩ => show win0_1.index _ (0 : Fin 3) * 8 ≤ (i 0).val ∧ (i 0).val < win0_1.index _ (0 : Fin 3) * 8 + 8; omega
  | ⟨1, _⟩ => show win0_1.index _ (1 : Fin 3) * 2001 ≤ (i 1).val ∧ (i 1).val < win0_1.index _ (1 : Fin 3) * 2001 + 2001; omega
  | ⟨2, _⟩ => show win0_1.index _ (2 : Fin 3) * 8 ≤ (i 2).val ∧ (i 2).val < win0_1.index _ (2 : Fin 3) * 8 + 8; omega

/-- THE RESULT ARRAY of the region after the run: the fold of the rows of the input array. -/
theorem final (c : Dev nD) : (dats m 0 c).arrAt 1 cfg0.N = rowsFold (xarr m c) :=
  (dats m 0 c).arrAt_eq_of_cover 1 (rowsFold (xarr m c)) (fun t _ => flushed_eq m c t) cover

/-- The input array the region finds is the argument reshaped to 2048 rows. -/
theorem xarr_eq (c : Dev nD) :
    xarr m c = shapeCast S2048x2000x16 (m ((c : Thread nD τ).loc main_arg0)) shapeCasts_S8x256x2000x16_S2048x2000x16 := by
  show StableHlo.after hostOps0 (fun b => m (c, b)) (Proc.devRef .tc main_v0) = _
  after_results
  rfl

/-- The program's result as one term of the argument. -/
def term (x : S8x256x2000x16.Idx → EReal) : S8x256x16008.Idx → EReal :=
  shapeCast S8x256x16008
    (shapeCast S2048x16008 (rowsFold (shapeCast S2048x2000x16 x shapeCasts_S8x256x2000x16_S2048x2000x16)) shapeCasts_S2048x2001x8_S2048x16008)
    shapeCasts_S2048x16008_S8x256x16008

/-- What the two reshapes after the region leave in the result buffer. -/
theorem tail_eq (c : Dev nD) :
    Pipeline.afterTail₀ cfgs (dats m) 0 (V0 m) [hostOps1] c main_v3 = term (m ((c : Thread nD τ).loc main_arg0)) := by
  unfold Pipeline.afterTail₀
  show StableHlo.after hostOps1 _ (Proc.devRef .tc main_v3) = _
  after_results
  have hw := (Pipeline.withArrays_arr spec0 launch0.win.arr_inj c (V0 m c) (fun w => (dats m 0 c).arrAt w (cfgs 0).N) 1).trans (final m c)
  rw [show Pipeline.withArrays (cfgs 0).spec c (V0 m c) (fun w => (dats m 0 c).arrAt w (cfgs 0).N) (Proc.devRef .tc main_v1) = rowsFold (xarr m c) from hw]
  rw [xarr_eq]
  rfl

/-- THE RUN, read: every weakly fair execution terminates with the result buffer at `term` of the argument and the
    argument unchanged. -/
theorem run : θ_run defs (onTc (τ := τ) (main (F := Ideal))) ⟨m, fun _ => 0, ρ⟩ fun r => ∀ c : Dev nD,
      r.2.mem ((c.tc : Thread nD τ).loc main_v3) = term (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c)⟩)
    (run_main m ρ)

/-- THE KERNEL PROGRAM'S RESULT, index by index, is the fold: entry `(b, c, k)` is entry `(256 b + c, k / 8, k % 8)` of the
    rows' fold, and row `256 b + c` of the reshaped argument is row `(b, c)` of the signal. -/
theorem term_apply (x : S8x256x2000x16.Idx → EReal) (b : Fin 8) (c : Fin 256) (k : Fin 16008) :
    term x (ix3 b c k) = Cert.Fold.G x (ix3 b c k) := by
  rw [Cert.Fold.G_apply]
  unfold term
  have hk : k.val < 16008 := k.isLt
  have hb : b.val < 8 := b.isLt
  have hc : c.val < 256 := c.isLt
  rw [shapeCast_apply _ _ (ix3 b c k) (ix2 (⟨b.val * 256 + c.val, by omega⟩ : Fin 2048) k) (by
    rw [Shape.rowMajor_val_two, Shape.rowMajor_val_three]
    show (b.val * 256 + c.val) * 16008 + k.val = (b.val * 256 + c.val) * 16008 + k.val
    rfl)]
  rw [shapeCast_apply _ _ (ix2 (⟨b.val * 256 + c.val, by omega⟩ : Fin 2048) k)
    (ix3 (⟨b.val * 256 + c.val, by omega⟩ : Fin 2048) (⟨k.val / 8, by omega⟩ : Fin 2001) (⟨k.val % 8, Nat.mod_lt _ (by decide)⟩ : Fin 8)) (by
    rw [Shape.rowMajor_val_three, Shape.rowMajor_val_two]
    show ((b.val * 256 + c.val) * 2001 + k.val / 8) * 8 + k.val % 8 = (b.val * 256 + c.val) * 16008 + k.val
    omega)]
  rw [rowsFold_apply]
  unfold Cert.Fold.foldAt Cert.Fold.foldAt4
  congr 1
  · refine dite_congr rfl (fun h => ?_) (fun _ => rfl)
    refine shapeCast_apply _ _ _ _ ?_
    rw [Shape.rowMajor_val_four, Shape.rowMajor_val_three]
    rfl
  · refine dite_congr rfl (fun h => ?_) (fun _ => rfl)
    refine shapeCast_apply _ _ _ _ ?_
    rw [Shape.rowMajor_val_four, Shape.rowMajor_val_three]
    rfl

end Cert.KernelIdeal.KValue
end
-- ==== Proof.RefRun.lean ====
/-
  The reference program's @main read back as a list of its nine host operations, and its run: every weakly fair
  execution terminates with the result buffer at the operations' composed term of the argument — the signal reshaped to
  sub-frames of eight samples, the sub-frame axis moved to the front, scatter-added onto zeros along that axis by the
  constant index table, the axis moved back and the last two axes flattened — and the argument unchanged.
-/
import proofs.«103044_j61933428415564_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's nine operations, in order. -/
abbrev ops : List (HloOp τ sig (Elt F)) :=
  [ nullary main_c (fun i => lit0 (S4000.rowMajor i)),
    reshape main_arg0 main_v0 rfl shapeCasts_S8x256x2000x16_S8x256x4000x8,
    unary main_v0 main_v1 ((transpose S4000x8x256x8 [2, 0, 1, 3] · transposes_S8x256x4000x8_S4000x8x256x8_2_0_1_3) : (⟨S8x256x4000x8, .f32⟩ : BufTy).Contents (Elt F) → (⟨S4000x8x256x8, .f32⟩ : BufTy).Contents (Elt F)),
    nullary main_cst (constant S_ .f32 0x00000000#32),
    unary main_cst main_v2 (broadcastInDim S2001x8x256x8 ![] bcast_S_S2001x8x256x8 : (⟨S_, .f32⟩ : BufTy).Contents (Elt F) → (⟨S2001x8x256x8, .f32⟩ : BufTy).Contents (Elt F)),
    unary main_c main_v3 (broadcastInDim S4000x1 ![0] bcast_S4000_S4000x1_0 : (⟨S4000, .i32⟩ : BufTy).Contents (Elt F) → (⟨S4000x1, .i32⟩ : BufTy).Contents (Elt F)),
    ternary main_v2 main_v3 main_v1 main_v4 ((fun x i u => Host.scatterAdd scatter_S2001x8x256x8_S4000x1_S4000x8x256x8_123_0_0_1 x i u) : (⟨S2001x8x256x8, .f32⟩ : BufTy).Contents (Elt F) → (⟨S4000x1, .i32⟩ : BufTy).Contents (Elt F) → (⟨S4000x8x256x8, .f32⟩ : BufTy).Contents (Elt F) → (⟨S2001x8x256x8, .f32⟩ : BufTy).Contents (Elt F)),
    unary main_v4 main_v5 ((transpose S8x256x2001x8 [1, 2, 0, 3] · transposes_S2001x8x256x8_S8x256x2001x8_1_2_0_3) : (⟨S2001x8x256x8, .f32⟩ : BufTy).Contents (Elt F) → (⟨S8x256x2001x8, .f32⟩ : BufTy).Contents (Elt F)),
    reshape main_v5 main_v6 rfl shapeCasts_S8x256x2001x8_S8x256x16008 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., nullary_bufs_sub .., unary_bufs_sub .., unary_bufs_sub .., ternary_bufs_sub .., unary_bufs_sub .., reshape_bufs_sub ..⟩

/-- The result as one term of the argument array. -/
def term (x : (⟨S8x256x2000x16, .f32⟩ : BufTy).Contents (Elt F)) : (⟨S8x256x16008, .f32⟩ : BufTy).Contents (Elt F) :=
  shapeCast S8x256x16008
    (transpose S8x256x2001x8 [1, 2, 0, 3]
      (Host.scatterAdd scatter_S2001x8x256x8_S4000x1_S4000x8x256x8_123_0_0_1
        (broadcastInDim S2001x8x256x8 ![] bcast_S_S2001x8x256x8 (constant S_ .f32 0x00000000#32))
        (broadcastInDim S4000x1 ![0] bcast_S4000_S4000x1_0 (fun i => lit0 (S4000.rowMajor i)))
        (transpose S4000x8x256x8 [2, 0, 1, 3] (shapeCast S8x256x4000x8 x shapeCasts_S8x256x2000x16_S8x256x4000x8)
          transposes_S8x256x4000x8_S4000x8x256x8_2_0_1_3))
      transposes_S2001x8x256x8_S8x256x2001x8_1_2_0_3)
    shapeCasts_S8x256x2001x8_S8x256x16008

/-- From any memory with zero counters every weakly fair execution of @main terminates, the result buffer at the
    operations' composed term of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = term (m ((c.tc : Thread nD τ).loc main_arg0))
      ∧ r.2.mem ((c.tc : Thread nD τ).loc main_arg0) = m ((c.tc : Thread nD τ).loc main_arg0) :=
  (θ_run defs _ _).mono (fun _ h c => ⟨(h c main_v6).trans (by unfold term; after_results; rfl),
      (h c main_arg0).trans (by after_results)⟩)
    (run_seq scopedRefs_eq scopedSems_eq defs main (fun _ => ops) main_eq (fun _ => ops_sub) m ρ)

end Cert.ReferenceIdeal.RefRun

end
-- ==== Proof.ScatterFold.lean ====
/-
  The reference's overlap-add is a scatter-add of 4000 update rows into 2001 operand rows, update row n
  going to operand row ⌈n/2⌉ = (n + 1) / 2. Here: the index table's closed form, and the scatter-add read
  at one result index (f, b, c, s): the operand's element plus update row 2f (when f < 2000) plus update
  row 2f − 1 (when 1 ≤ f), the only two rows n with (n + 1) / 2 = f.
-/
import proofs.«103044_j61933428415564_1_alg».proof.Proof.Gen.ReferenceIdeal
import Idealize.ShloMosaic.PureOps.Ideal
import Idealize.ShloMosaic.Lib.ValueIdx

noncomputable section
namespace Cert.ReferenceIdeal.ScatterFold
open Cert.ReferenceIdeal Cert.ReferenceIdeal.Gen Cert.ReferenceIdeal.Facts₀ Idealize.ShloMosaic Idealize.ShloMosaic.ValueIdx

/-- entry n of the index table is ⌈n/2⌉ -/
theorem lit0_eq (n : Fin 4000) : lit0 n = BitVec.ofNat 32 ((n.val + 1) / 2) :=
  (by decide +kernel : ∀ n : Fin 4000, lit0 n = BitVec.ofNat 32 ((n.val + 1) / 2)) n

local notation "𝒟" => scatter_S2001x8x256x8_S4000x1_S4000x8x256x8_123_0_0_1

/-- A half-index below 2000 read as a signed 32-bit word is itself. -/
theorem toInt_half (n : Fin 4000) :
    (BitVec.ofNat 32 ((n.val + 1) / 2)).toInt = (((n.val + 1) / 2 : Nat) : Int) := by
  have hn := n.isLt
  have h1 : (BitVec.ofNat 32 ((n.val + 1) / 2)).toNat = (n.val + 1) / 2 := by
    rw [BitVec.toNat_ofNat]; omega
  rw [BitVec.toInt_eq_toNat_of_lt (by rw [h1]; omega), h1]

/-- The scatter-indices position an update index (n, b, c, s) reads its start from: row n, the one column. -/
theorem siIdx_eq (n : Fin 4000) (b : Fin 8) (c : Fin 256) (s : Fin 8)
    (k : Fin (𝒟).scatterDimsToOperandDims.length) :
    (𝒟).siIdx (ix4 n b c s) k = ix2 n (0 : Fin 1) := by
  funext a
  match a with
  | ⟨0, _⟩ => rfl
  | ⟨1, _⟩ => exact Subsingleton.elim (α := Fin 1) _ _

/-- The window's start: the signed index entry of row n on operand axis 0, zero on the three window axes. -/
theorem start_eq (idx : IVec S4000x1 32) (n : Fin 4000) (b : Fin 8) (c : Fin 256) (s : Fin 8) :
    ∀ a : Fin 4, (𝒟).start (ix4 n b c s) idx a
      = match a with | ⟨0, _⟩ => (idx (ix2 n (0 : Fin 1))).toInt | _ => 0 := by
  intro a
  match a with
  | ⟨0, _⟩ =>
    have hm : (⟨0, by decide⟩ : Fin 4) ∈ (𝒟).scatterDimsToOperandDims := by
      show (0 : Fin 4) ∈ [0]
      simp
    show (if ha : (⟨0, by decide⟩ : Fin 4) ∈ (𝒟).scatterDimsToOperandDims then _ else _) = _
    rw [dif_pos hm, siIdx_eq]
    rfl
  | ⟨1, _⟩ => rfl
  | ⟨2, _⟩ => rfl
  | ⟨3, _⟩ => rfl

/-- The window coordinate: zero on the inserted axis 0, the update's b, c, s on axes 1, 2, 3. -/
theorem window_eq (n : Fin 4000) (b : Fin 8) (c : Fin 256) (s : Fin 8) :
    ∀ a : Fin 4, (𝒟).window (ix4 n b c s) a
      = match a with | ⟨0, _⟩ => 0 | ⟨1, _⟩ => b.val | ⟨2, _⟩ => c.val | ⟨3, _⟩ => s.val := by
  intro a
  match a with
  | ⟨0, _⟩ => rfl
  | ⟨1, _⟩ => rfl
  | ⟨2, _⟩ => rfl
  | ⟨3, _⟩ => rfl

/-- With entry n of the indices equal to ⌈n/2⌉, update index (n, b, c, s) lands at (⌈n/2⌉, b, c, s),
    inside the operand since ⌈n/2⌉ ≤ 2000. -/
theorem resultIdx_eq (idx : IVec S4000x1 32)
    (hidx : ∀ n : Fin 4000, idx (ix2 n (0 : Fin 1)) = BitVec.ofNat 32 ((n.val + 1) / 2))
    (n : Fin 4000) (b : Fin 8) (c : Fin 256) (s : Fin 8) :
    (𝒟).resultIdx? (ix4 n b c s) idx
      = some (ix4 (⟨(n.val + 1) / 2, by omega⟩ : Fin 2001) b c s) := by
  have hs := start_eq idx n b c s
  have hw := window_eq n b c s
  have hn := n.isLt
  have hb := b.isLt
  have hc := c.isLt
  have hsl := s.isLt
  have h0 : (𝒟).start (ix4 n b c s) idx ⟨0, by decide⟩ + (𝒟).window (ix4 n b c s) ⟨0, by decide⟩
      = (((n.val + 1) / 2 : Nat) : Int) := by
    rw [hs ⟨0, by decide⟩, hw ⟨0, by decide⟩]
    show (idx (ix2 n (0 : Fin 1))).toInt + ((0 : Nat) : Int) = _
    rw [hidx, toInt_half]; omega
  have h1 : (𝒟).start (ix4 n b c s) idx ⟨1, by decide⟩ + (𝒟).window (ix4 n b c s) ⟨1, by decide⟩
      = ((b.val : Nat) : Int) := by
    rw [hs ⟨1, by decide⟩, hw ⟨1, by decide⟩]
    show (0 : Int) + ((b.val : Nat) : Int) = _
    omega
  have h2 : (𝒟).start (ix4 n b c s) idx ⟨2, by decide⟩ + (𝒟).window (ix4 n b c s) ⟨2, by decide⟩
      = ((c.val : Nat) : Int) := by
    rw [hs ⟨2, by decide⟩, hw ⟨2, by decide⟩]
    show (0 : Int) + ((c.val : Nat) : Int) = _
    omega
  have h3 : (𝒟).start (ix4 n b c s) idx ⟨3, by decide⟩ + (𝒟).window (ix4 n b c s) ⟨3, by decide⟩
      = ((s.val : Nat) : Int) := by
    rw [hs ⟨3, by decide⟩, hw ⟨3, by decide⟩]
    show (0 : Int) + ((s.val : Nat) : Int) = _
    omega
  have hcond : ∀ a : Fin 4, 0 ≤ (𝒟).start (ix4 n b c s) idx a + (𝒟).window (ix4 n b c s) a ∧
      (𝒟).start (ix4 n b c s) idx a + (𝒟).window (ix4 n b c s) a < ((S2001x8x256x8.size a : Nat) : Int) := by
    intro a
    match a with
    | ⟨0, _⟩ => rw [h0]; show _ ∧ _ < ((2001 : Nat) : Int); omega
    | ⟨1, _⟩ => rw [h1]; show _ ∧ _ < ((8 : Nat) : Int); omega
    | ⟨2, _⟩ => rw [h2]; show _ ∧ _ < ((256 : Nat) : Int); omega
    | ⟨3, _⟩ => rw [h3]; show _ ∧ _ < ((8 : Nat) : Int); omega
  unfold ScatterDims.resultIdx?
  rw [dif_pos hcond]
  congr 1
  funext a
  apply Fin.ext
  match a with
  | ⟨0, _⟩ => show ((𝒟).start (ix4 n b c s) idx ⟨0, by decide⟩ + (𝒟).window (ix4 n b c s) ⟨0, by decide⟩).toNat = (n.val + 1) / 2; rw [h0]; omega
  | ⟨1, _⟩ => show ((𝒟).start (ix4 n b c s) idx ⟨1, by decide⟩ + (𝒟).window (ix4 n b c s) ⟨1, by decide⟩).toNat = b.val; rw [h1]; omega
  | ⟨2, _⟩ => show ((𝒟).start (ix4 n b c s) idx ⟨2, by decide⟩ + (𝒟).window (ix4 n b c s) ⟨2, by decide⟩).toNat = c.val; rw [h2]; omega
  | ⟨3, _⟩ => show ((𝒟).start (ix4 n b c s) idx ⟨3, by decide⟩ + (𝒟).window (ix4 n b c s) ⟨3, by decide⟩).toNat = s.val; rw [h3]; omega

/-- Update index (n, b', c', s') lands at (f, b, c, s) exactly when ⌈n/2⌉ = f and the window coordinates agree. -/
theorem resultIdx_eq_some_iff (idx : IVec S4000x1 32)
    (hidx : ∀ n : Fin 4000, idx (ix2 n (0 : Fin 1)) = BitVec.ofNat 32 ((n.val + 1) / 2))
    (f : Fin 2001) (b : Fin 8) (c : Fin 256) (s : Fin 8)
    (n : Fin 4000) (b' : Fin 8) (c' : Fin 256) (s' : Fin 8) :
    (𝒟).resultIdx? (ix4 n b' c' s') idx = some (ix4 f b c s)
      ↔ ((n.val + 1) / 2 = f.val ∧ b'.val = b.val ∧ c'.val = c.val ∧ s'.val = s.val) := by
  rw [resultIdx_eq idx hidx, Option.some.injEq]
  constructor
  · intro h
    have e0 := congrFun h ⟨0, by decide⟩
    have e1 := congrFun h ⟨1, by decide⟩
    have e2 := congrFun h ⟨2, by decide⟩
    have e3 := congrFun h ⟨3, by decide⟩
    exact ⟨congrArg Fin.val e0, congrArg Fin.val e1, congrArg Fin.val e2, congrArg Fin.val e3⟩
  · rintro ⟨h0, h1, h2, h3⟩
    funext a
    match a with
    | ⟨0, _⟩ => exact Fin.ext h0
    | ⟨1, _⟩ => exact Fin.ext h1
    | ⟨2, _⟩ => exact Fin.ext h2
    | ⟨3, _⟩ => exact Fin.ext h3

/-- The scatter's hit test at an update index, by that index's coordinates. -/
theorem hit_iff (idx : IVec S4000x1 32)
    (hidx : ∀ n : Fin 4000, idx (ix2 n (0 : Fin 1)) = BitVec.ofNat 32 ((n.val + 1) / 2))
    (f : Fin 2001) (b : Fin 8) (c : Fin 256) (s : Fin 8) (j : S4000x8x256x8.Idx) :
    (𝒟).resultIdx? j idx = some (ix4 f b c s)
      ↔ (((j 0).val + 1) / 2 = f.val ∧ (j 1).val = b.val ∧ (j 2).val = c.val ∧ (j 3).val = s.val) := by
  have e : (𝒟).resultIdx? j idx = (𝒟).resultIdx? (ix4 (j 0) (j 1) (j 2) (j 3)) idx :=
    congrArg (fun j => (𝒟).resultIdx? j idx) (eq_ix4 j)
  rw [e]
  exact resultIdx_eq_some_iff idx hidx f b c s (j 0) (j 1) (j 2) (j 3)

/-- An update index with the given coordinates is that `ix4`. -/
theorem eq_ix4_of_val (j : S4000x8x256x8.Idx) (n : Fin 4000) (b : Fin 8) (c : Fin 256) (s : Fin 8)
    (h0 : (j 0).val = n.val) (h1 : (j 1).val = b.val) (h2 : (j 2).val = c.val) (h3 : (j 3).val = s.val) :
    j = ix4 n b c s := by
  funext a
  match a with
  | ⟨0, _⟩ => exact Fin.ext h0
  | ⟨1, _⟩ => exact Fin.ext h1
  | ⟨2, _⟩ => exact Fin.ext h2
  | ⟨3, _⟩ => exact Fin.ext h3

/-- the scatter-add read at one result index -/
theorem scatterAdd_apply (x : S2001x8x256x8.Idx → EReal) (idx : IVec S4000x1 32) (upd : S4000x8x256x8.Idx → EReal)
    (hidx : ∀ n : Fin 4000, idx (ix2 n (0 : Fin 1)) = BitVec.ofNat 32 ((n.val + 1) / 2))
    (f : Fin 2001) (b : Fin 8) (c : Fin 256) (s : Fin 8) :
    Ideal.hostScatterAdd scatter_S2001x8x256x8_S4000x1_S4000x8x256x8_123_0_0_1 x idx upd (ix4 f b c s)
      = x (ix4 f b c s)
        + ((if h : f.val < 2000 then upd (ix4 ⟨2 * f.val, by omega⟩ b c s) else 0)
           + (if h : 1 ≤ f.val then upd (ix4 ⟨2 * f.val - 1, by omega⟩ b c s) else 0)) := by
  have hf := f.isLt
  have hit := hit_iff idx hidx f b c s
  unfold Ideal.hostScatterAdd
  congr 1
  rw [← Finset.sum_filter_add_sum_filter_not _ (fun j : S4000x8x256x8.Idx => (j 0).val = 2 * f.val)]
  congr 1
  · -- the even hit
    by_cases h : f.val < 2000
    · rw [dif_pos h]
      have hset : (Finset.univ.filter (fun j => (𝒟).resultIdx? j idx = some (ix4 f b c s))).filter
          (fun j : S4000x8x256x8.Idx => (j 0).val = 2 * f.val)
          = {ix4 (⟨2 * f.val, by omega⟩ : Fin 4000) b c s} := by
        ext j
        simp only [Finset.mem_filter, Finset.mem_univ, true_and, Finset.mem_singleton]
        constructor
        · rintro ⟨hq, hr⟩
          obtain ⟨_, h1, h2, h3⟩ := (hit j).1 hq
          exact eq_ix4_of_val j _ b c s hr h1 h2 h3
        · rintro rfl
          refine ⟨(hit _).2 ⟨?_, rfl, rfl, rfl⟩, rfl⟩
          show (2 * f.val + 1) / 2 = f.val
          omega
      rw [hset, Finset.sum_singleton]
    · rw [dif_neg h]
      apply Finset.sum_eq_zero
      intro j hj
      exfalso
      simp only [Finset.mem_filter, Finset.mem_univ, true_and] at hj
      obtain ⟨hq, hr⟩ := hj
      have h0 := ((hit j).1 hq).1
      have hj0 : (j 0).val < 4000 := (j 0).isLt
      omega
  · -- the odd hit
    by_cases h : 1 ≤ f.val
    · rw [dif_pos h]
      have hset : (Finset.univ.filter (fun j => (𝒟).resultIdx? j idx = some (ix4 f b c s))).filter
          (fun j : S4000x8x256x8.Idx => ¬ (j 0).val = 2 * f.val)
          = {ix4 (⟨2 * f.val - 1, by omega⟩ : Fin 4000) b c s} := by
        ext j
        simp only [Finset.mem_filter, Finset.mem_univ, true_and, Finset.mem_singleton]
        constructor
        · rintro ⟨hq, hr⟩
          obtain ⟨h0, h1, h2, h3⟩ := (hit j).1 hq
          refine eq_ix4_of_val j _ b c s ?_ h1 h2 h3
          show (j 0).val = 2 * f.val - 1
          omega
        · rintro rfl
          refine ⟨(hit _).2 ⟨?_, rfl, rfl, rfl⟩, ?_⟩
          · show (2 * f.val - 1 + 1) / 2 = f.val
            omega
          · show ¬ (2 * f.val - 1 = 2 * f.val)
            omega
      rw [hset, Finset.sum_singleton]
    · rw [dif_neg h]
      apply Finset.sum_eq_zero
      intro j hj
      exfalso
      simp only [Finset.mem_filter, Finset.mem_univ, true_and] at hj
      obtain ⟨hq, hr⟩ := hj
      have h0 := ((hit j).1 hq).1
      omega

end Cert.ReferenceIdeal.ScatterFold

end
-- ==== Proof.RefValue.lean ====
/-
  The reference's result read at an index. Entry `(b, c, k)` of the result, `k = 8 f + s`, is entry `(f, b, c, s)` of the
  scatter-add; sub-frame `n` of a row (eight samples) is the half `n % 2` of frame `n / 2`, and the index table sends it
  to output frame `⌈n / 2⌉`; so output frame `f` receives sub-frames `2 f` (the first half of frame `f`) and `2 f - 1`
  (the second half of frame `f - 1`), added onto zero: the fold.
-/
import proofs.«103044_j61933428415564_1_alg».proof.Proof.RefRun
import proofs.«103044_j61933428415564_1_alg».proof.Proof.ScatterFold
import proofs.«103044_j61933428415564_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

variable (x : S8x256x2000x16.Idx → EReal)

/-- The updates: the signal as 4000 sub-frames of eight samples, the sub-frame axis in front. -/
abbrev upd : S4000x8x256x8.Idx → EReal :=
  transpose S4000x8x256x8 [2, 0, 1, 3] (shapeCast S8x256x4000x8 x shapeCasts_S8x256x2000x16_S8x256x4000x8)
    transposes_S8x256x4000x8_S4000x8x256x8_2_0_1_3

/-- Sub-frame `n` is samples `8 (n % 2) …` of frame `n / 2`. -/
theorem upd_apply (n : Fin 4000) (b : Fin 8) (c : Fin 256) (s : Fin 8) (g : Fin 2000) (l : Fin 16)
    (hg : g.val = n.val / 2) (hl : l.val = 8 * (n.val % 2) + s.val) :
    upd x (ix4 n b c s) = x (ix4 b c g l) := by
  unfold upd
  rw [transpose_apply _ _ _ (ix4 n b c s) (ix4 b c n s) (fun a => match a with | ⟨0, _⟩ => rfl | ⟨1, _⟩ => rfl | ⟨2, _⟩ => rfl | ⟨3, _⟩ => rfl)]
  refine shapeCast_apply _ _ (ix4 b c n s) (ix4 b c g l) ?_
  rw [Shape.rowMajor_val_four, Shape.rowMajor_val_four]
  show ((b.val * 256 + c.val) * 2000 + g.val) * 16 + l.val = ((b.val * 256 + c.val) * 4000 + n.val) * 8 + s.val
  omega

/-- The scatter indices: entry `n` of the table, `⌈n / 2⌉`. -/
theorem idx_apply (n : Fin 4000) :
    broadcastInDim S4000x1 ![0] bcast_S4000_S4000x1_0 (fun i => lit0 (S4000.rowMajor i)) (ix2 n (0 : Fin 1)) = BitVec.ofNat 32 ((n.val + 1) / 2) := by
  rw [broadcastInDim_apply _ _ _ (ix2 n (0 : Fin 1)) (ix1 n) (fun a => match a with | ⟨0, _⟩ => rfl)]
  have e : S4000.rowMajor (ix1 n) = n := Fin.ext (by rw [Shape.rowMajor_val_one])
  show lit0 (S4000.rowMajor (ix1 n)) = _
  rw [e]
  exact ScatterFold.lit0_eq n

/-- The operand: zeros. -/
theorem zeros_apply (j : S2001x8x256x8.Idx) :
    broadcastInDim S2001x8x256x8 ![] bcast_S_S2001x8x256x8 (constant (F := Ideal) S_ .f32 0x00000000#32) j = 0 := by
  rw [broadcastInDim_apply _ _ _ j ix0 (fun a => a.elim0)]
  exact Ideal.ofBits_zero_f32

/-- THE REFERENCE'S RESULT, index by index, is the fold. -/
theorem term_apply (b : Fin 8) (c : Fin 256) (k : Fin 16008) :
    RefRun.term (F := Ideal) x (ix3 b c k) = Cert.Fold.G x (ix3 b c k) := by
  rw [Cert.Fold.G_apply]
  unfold RefRun.term
  have hk : k.val < 16008 := k.isLt
  rw [shapeCast_apply _ _ (ix3 b c k) (ix4 b c (⟨k.val / 8, by omega⟩ : Fin 2001) (⟨k.val % 8, Nat.mod_lt _ (by decide)⟩ : Fin 8)) (by
    rw [Shape.rowMajor_val_four, Shape.rowMajor_val_three]
    show ((b.val * 256 + c.val) * 2001 + k.val / 8) * 8 + k.val % 8 = (b.val * 256 + c.val) * 16008 + k.val
    omega)]
  rw [transpose_apply _ _ _ (ix4 b c (⟨k.val / 8, by omega⟩ : Fin 2001) (⟨k.val % 8, Nat.mod_lt _ (by decide)⟩ : Fin 8))
    (ix4 (⟨k.val / 8, by omega⟩ : Fin 2001) b c (⟨k.val % 8, Nat.mod_lt _ (by decide)⟩ : Fin 8))
    (fun a => match a with | ⟨0, _⟩ => rfl | ⟨1, _⟩ => rfl | ⟨2, _⟩ => rfl | ⟨3, _⟩ => rfl)]
  show Ideal.hostScatterAdd scatter_S2001x8x256x8_S4000x1_S4000x8x256x8_123_0_0_1 _ _ (upd x) _ = _
  rw [ScatterFold.scatterAdd_apply _ _ _ idx_apply]
  rw [zeros_apply, zero_add]
  unfold Cert.Fold.foldAt4
  congr 1
  · refine dite_congr rfl (fun h => ?_) (fun _ => rfl)
    have h' : k.val / 8 < 2000 := h
    exact upd_apply x _ b c _ _ _ (by show k.val / 8 = 2 * (k.val / 8) / 2; omega)
      (by show k.val % 8 = 8 * (2 * (k.val / 8) % 2) + k.val % 8; omega)
  · refine dite_congr rfl (fun h => ?_) (fun _ => rfl)
    have h' : 1 ≤ k.val / 8 := h
    exact upd_apply x _ b c _ _ _ (by show k.val / 8 - 1 = (2 * (k.val / 8) - 1) / 2; omega)
      (by show 8 + k.val % 8 = 8 * ((2 * (k.val / 8) - 1) % 2) + k.val % 8; omega)

end Cert.ReferenceIdeal.RefValue

end
-- ==== Proof.lean ====
/-
  The kernel folds 2000 overlapping frames of 16 samples at hop 8 into a signal of 16008 samples per row (overlap-add at
  50 % overlap): output frame `f` of eight samples is the first half of input frame `f` plus the second half of input
  frame `f - 1`, where those frames exist. The kernel does it with a zeroed accumulator and two shifted additions per
  block of eight rows; the reference scatter-adds the 4000 half-frames of a row onto zeros by the index table
  `n ↦ ⌈n / 2⌉`. On the extended reals both are the same sum of at most two terms (`0 + a = a`, addition commutative
  and associative), so the claim needs no finiteness.

  The frames of the two kernel programs are the generated ones; the reference's frame is its run with the result
  dropped. The kernel's idealization rewrote nothing, so `preserves` is trivial. For `algebraic`, both runs end with the
  result buffer at `Cert.Fold.G` of the argument (Proof/Spec.lean): the kernel's by Proof/KBody.lean (what the body leaves
  in a block) and Proof/KValue.lean (blocks to array, and the reshapes around the region), the reference's by
  Proof/RefRun.lean (its run), Proof/ScatterFold.lean (the scatter-add read at an index) and Proof/RefValue.lean.
-/
import proofs.«103044_j61933428415564_1_alg».proof.Defs
import proofs.«103044_j61933428415564_1_alg».proof.Proof.Gen.Kernel
import proofs.«103044_j61933428415564_1_alg».proof.Proof.Gen.Kernel.Skeleton
import proofs.«103044_j61933428415564_1_alg».proof.Proof.Gen.Kernel.Launch
import proofs.«103044_j61933428415564_1_alg».proof.Proof.Gen.Kernel.Points
import proofs.«103044_j61933428415564_1_alg».proof.Proof.Gen.Kernel.Frame
import proofs.«103044_j61933428415564_1_alg».proof.Proof.Gen.KernelIdeal
import proofs.«103044_j61933428415564_1_alg».proof.Proof.Gen.KernelIdeal.Skeleton
import proofs.«103044_j61933428415564_1_alg».proof.Proof.Gen.KernelIdeal.Launch
import proofs.«103044_j61933428415564_1_alg».proof.Proof.Gen.KernelIdeal.Points
import proofs.«103044_j61933428415564_1_alg».proof.Proof.Gen.KernelIdeal.Frame
import proofs.«103044_j61933428415564_1_alg».proof.Proof.Gen.ReferenceIdeal
import proofs.«103044_j61933428415564_1_alg».proof.Proof.Gen.Pre_finite_inputs
import proofs.«103044_j61933428415564_1_alg».proof.Proof.KValue
import proofs.«103044_j61933428415564_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program's result term is the fold of its argument. -/
theorem kernel_term_eq (x : Cert.KernelIdeal.S8x256x2000x16.Idx → EReal) : Cert.KernelIdeal.KValue.term x = Cert.Fold.G x := by
  funext i
  obtain ⟨b, c, k, rfl⟩ : ∃ (b : Fin 8) (c : Fin 256) (k : Fin 16008), i = ix3 b c k := ⟨i 0, i 1, i 2, eq_ix3 i⟩
  exact Cert.KernelIdeal.KValue.term_apply x b c k

/-- So is the reference's. -/
theorem reference_term_eq (x : Cert.ReferenceIdeal.S8x256x2000x16.Idx → EReal) :
    Cert.ReferenceIdeal.RefRun.term (F := Ideal) x = Cert.Fold.G x := by
  funext i
  obtain ⟨b, c, k, rfl⟩ : ∃ (b : Fin 8) (c : Fin 256) (k : Fin 16008), i = ix3 b c k := ⟨i 0, i 1, i 2, eq_ix3 i⟩
  exact Cert.ReferenceIdeal.RefValue.term_apply x b c k

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the signal both programs end with the fold of the signal in their result buffers. -/
theorem algebraic : Cert.algebraic_KernelIdeal_ReferenceIdeal := by
  intro m ρ m' ρ' _ hagree
  refine ⟨fun c => Cert.Fold.G (m ((c.tc : Thread Cert.KernelIdeal.nD Cert.KernelIdeal.τ).loc Cert.KernelIdeal.main_arg0)), ?_, ?_⟩
  · exact (θ_run Cert.KernelIdeal.defs _ _).mono (fun _ h c => ⟨(h c).1.trans (kernel_term_eq _), (h c).2⟩)
      (Cert.KernelIdeal.KValue.run m ρ)
  · refine (θ_run Cert.ReferenceIdeal.defs _ _).mono (fun _ h c => ⟨(h c).1.trans ?_, (h c).2⟩)
      (Cert.ReferenceIdeal.RefRun.run (F := Ideal) m' ρ')
    rw [hagree c]
    exact reference_term_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
